-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x16x64x64x128 : Shape := ⟨5, ![4, 16, 64, 64, 128]⟩
abbrev S16x4 : Shape := ⟨2, ![16, 4]⟩
abbrev S128x128 : Shape := ⟨2, ![128, 128]⟩
abbrev S128 : Shape := ⟨1, ![128]⟩
abbrev S_ : Shape := ⟨0, ![]⟩

class Facts : Prop where
  bcast_S_S4x16x64x64x128 : S_.BroadcastsInDim S4x16x64x64x128 (![] : Fin 0 → Fin S4x16x64x64x128.rank)
  reducesTo_S4x16x64x64x128_S_d0_1_2_3_4 : S4x16x64x64x128.ReducesTo [0, 1, 2, 3, 4] S_
  h_S_ : 0 < S_.numel
  bcast_S_S16x4 : S_.BroadcastsInDim S16x4 (![] : Fin 0 → Fin S16x4.rank)
  reducesTo_S16x4_S_d0_1 : S16x4.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S4x16x64x64x128 .f32) (main_arg1 : FVec F S16x4 .f32) (main_arg2 : FVec F S128x128 .f32) (main_arg3 : FVec F S128 .f32) : IVec S_ 1 :=
  let main_v0 : FVec F S4x16x64x64x128 .f32 := Host.absf main_arg0
  let main_cst : FVec F S_ .f32 := constant S_ .f32 0x7F800000#32
  let main_v1 : FVec F S4x16x64x64x128 .f32 := broadcastInDim S4x16x64x64x128 ![] bcast_S_S4x16x64x64x128 main_cst
  let main_v2 : IVec S4x16x64x64x128 1 := cmpf .olt main_v0 main_v1
  let main_c : IVec S_ 1 := constantI S_ 1 1#1
  let main_v3 : IVec S_ 1 := (fun x v => Host.reduce IntOp.andi x v reducesTo_S4x16x64x64x128_S_d0_1_2_3_4 h_S_) main_v2 main_c
  let main_v4 : FVec F S16x4 .f32 := Host.absf main_arg1
  let main_cst_0 : FVec F S_ .f32 := constant S_ .f32 0x7F800000#32
  let main_v5 : FVec F S16x4 .f32 := broadcastInDim S16x4 ![] bcast_S_S16x4 main_cst_0
  let main_v6 : IVec S16x4 1 := cmpf .olt main_v4 main_v5
  let main_c_1 : IVec S_ 1 := constantI S_ 1 1#1
  let main_v7 : IVec S_ 1 := (fun x v => Host.reduce IntOp.andi x v reducesTo_S16x4_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S4x16x64x64x128 : Shape := ⟨5, ![4, 16, 64, 64, 128]⟩
abbrev S16x4 : Shape := ⟨2, ![16, 4]⟩
abbrev S128x128 : Shape := ⟨2, ![128, 128]⟩
abbrev S128 : Shape := ⟨1, ![128]⟩
abbrev S1x16x1x4 : Shape := ⟨4, ![1, 16, 1, 4]⟩
abbrev S8x16x1x4 : Shape := ⟨4, ![8, 16, 1, 4]⟩
abbrev S128x4 : Shape := ⟨2, ![128, 4]⟩
abbrev S4x16x4096x128 : Shape := ⟨4, ![4, 16, 4096, 128]⟩
abbrev S_ : Shape := ⟨0, ![]⟩
abbrev S4x19x4096x128 : Shape := ⟨4, ![4, 19, 4096, 128]⟩
abbrev S1x19x512x128 : Shape := ⟨4, ![1, 19, 512, 128]⟩
abbrev S1x16x512x128 : Shape := ⟨4, ![1, 16, 512, 128]⟩
abbrev S19x512x128 : Shape := ⟨3, ![19, 512, 128]⟩
abbrev S16x512x128 : Shape := ⟨3, ![16, 512, 128]⟩
abbrev S128x1 : Shape := ⟨2, ![128, 1]⟩
abbrev S1x1x128 : Shape := ⟨3, ![1, 1, 128]⟩
abbrev S8192x128 : Shape := ⟨2, ![8192, 128]⟩
abbrev S1x128 : Shape := ⟨2, ![1, 128]⟩

abbrev nBuf : Space → Nat
  | .hbm => 13
  | .vmem => 7
  | .smem => 0
  | _ => 0

abbrev bufTy : (tb : Table) → Fin (tcTables nBuf tb) → BufTy
  | .hbm, ⟨0, _⟩ => ⟨S4x16x64x64x128, .f32⟩
  | .hbm, ⟨1, _⟩ => ⟨S16x4, .f32⟩
  | .hbm, ⟨2, _⟩ => ⟨S128x128, .f32⟩
  | .hbm, ⟨3, _⟩ => ⟨S128, .f32⟩
  | .hbm, ⟨4, _⟩ => ⟨S1x16x1x4, .f32⟩
  | .hbm, ⟨5, _⟩ => ⟨S8x16x1x4, .f32⟩
  | .hbm, ⟨6, _⟩ => ⟨S128x4, .f32⟩
  | .hbm, ⟨7, _⟩ => ⟨S4x16x4096x128, .f32⟩
  | .hbm, ⟨8, _⟩ => ⟨S_, .i32⟩
  | .hbm, ⟨9, _⟩ => ⟨S_, .f32⟩
  | .hbm, ⟨10, _⟩ => ⟨S4x19x4096x128, .f32⟩
  | .hbm, ⟨11, _⟩ => ⟨S4x16x4096x128, .f32⟩
  | .hbm, ⟨12, _⟩ => ⟨S4x16x64x64x128, .f32⟩
  | .local _ .vmem, ⟨0, _⟩ => ⟨S1x19x512x128, .f32⟩
  | .local _ .vmem, ⟨1, _⟩ => ⟨S1x19x512x128, .f32⟩
  | .local _ .vmem, ⟨2, _⟩ => ⟨S128x4, .f32⟩
  | .local _ .vmem, ⟨3, _⟩ => ⟨S128x128, .f32⟩
  | .local _ .vmem, ⟨4, _⟩ => ⟨S128, .f32⟩
  | .local _ .vmem, ⟨5, _⟩ => ⟨S1x16x512x128, .f32⟩
  | .local _ .vmem, ⟨6, _⟩ => ⟨S1x16x512x128, .f32⟩
  | _, _ => ⟨S4x16x64x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S1x19x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S128x4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x16x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S16x4_S1x16x1x4 : S16x4.ShapeCasts S1x16x1x4
  bcast_S1x16x1x4_S8x16x1x4_0_1_2_3 : S1x16x1x4.BroadcastsInDim S8x16x1x4 (![0, 1, 2, 3] : Fin 4 → Fin S8x16x1x4.rank)
  shapeCasts_S8x16x1x4_S128x4 : S8x16x1x4.ShapeCasts S128x4
  shapeCasts_S4x16x64x64x128_S4x16x4096x128 : S4x16x64x64x128.ShapeCasts S4x16x4096x128
  pads_S4x16x4096x128_S4x19x4096x128_000_300_000_000 : S4x16x4096x128.Pads (![0, 3, 0, 0] : Fin 4 → Nat) ![0, 0, 0, 0] ![0, 0, 0, 0] S4x19x4096x128
  h_S_ : 0 < S_.numel
  inb_S1x19x512x128_S1x19x512x128_0_0_0_0 : ∀ a, (![0, 0, 0, 0] : Fin 4 → Nat) a + S1x19x512x128.size a ≤ S1x19x512x128.size a
  h_S1x19x512x128 : 0 < S1x19x512x128.numel
  shapeCasts_S1x19x512x128_S19x512x128 : S1x19x512x128.ShapeCasts S19x512x128
  inb_S128x4_S128x4_0_0 : ∀ a, (![0, 0] : Fin 2 → Nat) a + S128x4.size a ≤ S128x4.size a
  h_S128x4 : 0 < S128x4.numel
  slices_S128x4_o0_0_S128x1 : S128x4.Slices ![0, 0] S128x1
  shapeCasts_S128x1_S128 : S128x1.ShapeCasts S128
  slices_S19x512x128_o3_0_0_S16x512x128 : S19x512x128.Slices ![3, 0, 0] S16x512x128
  shapeCasts_S128_S1x1x128 : S128.ShapeCasts S1x1x128
  broadcasts_S1x1x128_S16x512x128 : S1x1x128.Broadcasts S16x512x128
  slices_S128x4_o0_1_S128x1 : S128x4.Slices ![0, 1] S128x1
  slices_S19x512x128_o2_0_0_S16x512x128 : S19x512x128.Slices ![2, 0, 0] S16x512x128
  slices_S128x4_o0_2_S128x1 : S128x4.Slices ![0, 2] S128x1
  slices_S19x512x128_o1_0_0_S16x512x128 : S19x512x128.Slices ![1, 0, 0] S16x512x128
  slices_S128x4_o0_3_S128x1 : S128x4.Slices ![0, 3] S128x1
  slices_S19x512x128_o0_0_0_S16x512x128 : S19x512x128.Slices ![0, 0, 0] S16x512x128
  shapeCasts_S16x512x128_S8192x128 : S16x512x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S8192x128 : S1x128.Broadcasts S8192x128
  shapeCasts_S8192x128_S16x512x128 : S8192x128.ShapeCasts S16x512x128
  inb_S1x16x512x128_S1x16x512x128_0_0_0_0 : ∀ a, (![0, 0, 0, 0] : Fin 4 → Nat) a + S1x16x512x128.size a ≤ S1x16x512x128.size a
  h_S1x16x512x128 : 0 < S1x16x512x128.numel
  shapeCasts_S1x16x512x128_S16x512x128 : S1x16x512x128.ShapeCasts S16x512x128
  shapeCasts_S16x512x128_S1x16x512x128 : S16x512x128.ShapeCasts S1x16x512x128
  shapeCasts_S4x16x4096x128_S4x16x64x64x128 : S4x16x4096x128.ShapeCasts S4x16x64x64x128
  dot_S8192x128_S128x128_S8192x128_1_0_0_1_n_n_wf : DotDims.WF S8192x128 S128x128 S8192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x512x128.size a ≤ S4x19x4096x128.size a
  hwx0_0 : ∀ i : grid0.Coords, EltTy.bits .f32 = 32 ∨ (Rect.block (s := S4x19x4096x128) S1x19x512x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x4.size a ≤ S128x4.size a
  hwx0_1 : ∀ i : grid0.Coords, EltTy.bits .f32 = 32 ∨ (Rect.block (s := S128x4) S128x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x16x512x128.size a ≤ S4x16x4096x128.size a
  hwx0_4 : ∀ i : grid0.Coords, EltTy.bits .f32 = 32 ∨ (Rect.block (s := S4x16x4096x128) S1x16x512x128.size (cc0_transform_4 i) (hinb0_4 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf

abbrev win0_0 : Pipeline.Window sig grid0 :=
  Pipeline.Window.ofSpec (Memref.whole main_v4) S1x19x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S128x4.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x16x512x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x16x64x64x128 : Shape := ⟨5, ![4, 16, 64, 64, 128]⟩
abbrev S16x4 : Shape := ⟨2, ![16, 4]⟩
abbrev S128x128 : Shape := ⟨2, ![128, 128]⟩
abbrev S128 : Shape := ⟨1, ![128]⟩
abbrev S1x16x1x4 : Shape := ⟨4, ![1, 16, 1, 4]⟩
abbrev S8x16x1x4 : Shape := ⟨4, ![8, 16, 1, 4]⟩
abbrev S128x4 : Shape := ⟨2, ![128, 4]⟩
abbrev S_ : Shape := ⟨0, ![]⟩
abbrev S4x19x64x64x128 : Shape := ⟨5, ![4, 19, 64, 64, 128]⟩
abbrev S128x1 : Shape := ⟨2, ![128, 1]⟩
abbrev S1x1x1x1x128 : Shape := ⟨5, ![1, 1, 1, 1, 128]⟩

abbrev nBuf : Space → Nat
  | .hbm => 44
  | .vmem => 0
  | .smem => 0
  | _ => 0

abbrev bufTy : (tb : Table) → Fin (tcTables nBuf tb) → BufTy
  | .hbm, ⟨0, _⟩ => ⟨S4x16x64x64x128, .f32⟩
  | .hbm, ⟨1, _⟩ => ⟨S16x4, .f32⟩
  | .hbm, ⟨2, _⟩ => ⟨S128x128, .f32⟩
  | .hbm, ⟨3, _⟩ => ⟨S128, .f32⟩
  | .hbm, ⟨4, _⟩ => ⟨S1x16x1x4, .f32⟩
  | .hbm, ⟨5, _⟩ => ⟨S8x16x1x4, .f32⟩
  | .hbm, ⟨6, _⟩ => ⟨S128x4, .f32⟩
  | .hbm, ⟨7, _⟩ => ⟨S_, .i32⟩
  | .hbm, ⟨8, _⟩ => ⟨S_, .f32⟩
  | .hbm, ⟨9, _⟩ => ⟨S4x19x64x64x128, .f32⟩
  | .hbm, ⟨10, _⟩ => ⟨S_, .f32⟩
  | .hbm, ⟨11, _⟩ => ⟨S4x16x64x64x128, .f32⟩
  | .hbm, ⟨12, _⟩ => ⟨S4x16x64x64x128, .f32⟩
  | .hbm, ⟨13, _⟩ => ⟨S128x1, .f32⟩
  | .hbm, ⟨14, _⟩ => ⟨S128, .f32⟩
  | .hbm, ⟨15, _⟩ => ⟨S1x1x1x1x128, .f32⟩
  | .hbm, ⟨16, _⟩ => ⟨S4x16x64x64x128, .f32⟩
  | .hbm, ⟨17, _⟩ => ⟨S4x16x64x64x128, .f32⟩
  | .hbm, ⟨18, _⟩ => ⟨S4x16x64x64x128, .f32⟩
  | .hbm, ⟨19, _⟩ => ⟨S4x16x64x64x128, .f32⟩
  | .hbm, ⟨20, _⟩ => ⟨S128x1, .f32⟩
  | .hbm, ⟨21, _⟩ => ⟨S128, .f32⟩
  | .hbm, ⟨22, _⟩ => ⟨S1x1x1x1x128, .f32⟩
  | .hbm, ⟨23, _⟩ => ⟨S4x16x64x64x128, .f32⟩
  | .hbm, ⟨24, _⟩ => ⟨S4x16x64x64x128, .f32⟩
  | .hbm, ⟨25, _⟩ => ⟨S4x16x64x64x128, .f32⟩
  | .hbm, ⟨26, _⟩ => ⟨S4x16x64x64x128, .f32⟩
  | .hbm, ⟨27, _⟩ => ⟨S128x1, .f32⟩
  | .hbm, ⟨28, _⟩ => ⟨S128, .f32⟩
  | .hbm, ⟨29, _⟩ => ⟨S1x1x1x1x128, .f32⟩
  | .hbm, ⟨30, _⟩ => ⟨S4x16x64x64x128, .f32⟩
  | .hbm, ⟨31, _⟩ => ⟨S4x16x64x64x128, .f32⟩
  | .hbm, ⟨32, _⟩ => ⟨S4x16x64x64x128, .f32⟩
  | .hbm, ⟨33, _⟩ => ⟨S4x16x64x64x128, .f32⟩
  | .hbm, ⟨34, _⟩ => ⟨S128x1, .f32⟩
  | .hbm, ⟨35, _⟩ => ⟨S128, .f32⟩
  | .hbm, ⟨36, _⟩ => ⟨S1x1x1x1x128, .f32⟩
  | .hbm, ⟨37, _⟩ => ⟨S4x16x64x64x128, .f32⟩
  | .hbm, ⟨38, _⟩ => ⟨S4x16x64x64x128, .f32⟩
  | .hbm, ⟨39, _⟩ => ⟨S4x16x64x64x128, .f32⟩
  | .hbm, ⟨40, _⟩ => ⟨S4x16x64x64x128, .f32⟩
  | .hbm, ⟨41, _⟩ => ⟨S1x1x1x1x128, .f32⟩
  | .hbm, ⟨42, _⟩ => ⟨S4x16x64x64x128, .f32⟩
  | .hbm, ⟨43, _⟩ => ⟨S4x16x64x64x128, .f32⟩
  | _, _ => ⟨S4x16x64x64x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_call0_v0 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩

abbrev nD : Nat := 1
abbrev τ : Topo := Topo.v7x

variable {F : FTy → Type} [FloatOps F]

class Facts₀ : Prop where
  shapeCasts_S16x4_S1x16x1x4 : S16x4.ShapeCasts S1x16x1x4
  bcast_S1x16x1x4_S8x16x1x4_0_1_2_3 : S1x16x1x4.BroadcastsInDim S8x16x1x4 (![0, 1, 2, 3] : Fin 4 → Fin S8x16x1x4.rank)
  shapeCasts_S8x16x1x4_S128x4 : S8x16x1x4.ShapeCasts S128x4
  pads_S4x16x64x64x128_S4x19x64x64x128_000_300_000_000_000 : S4x16x64x64x128.Pads (![0, 3, 0, 0, 0] : Fin 5 → Nat) ![0, 0, 0, 0, 0] ![0, 0, 0, 0, 0] S4x19x64x64x128
  h_S_ : 0 < S_.numel
  bcast_S_S4x16x64x64x128 : S_.BroadcastsInDim S4x16x64x64x128 (![] : Fin 0 → Fin S4x16x64x64x128.rank)
  slices_S4x19x64x64x128_S4x16x64x64x128_0_3_0_0_0 : S4x19x64x64x128.Slices ![0, 3, 0, 0, 0] S4x16x64x64x128
  slices_S128x4_S128x1_0_0 : S128x4.Slices ![0, 0] S128x1
  shapeCasts_S128x1_S128 : S128x1.ShapeCasts S128
  bcast_S128_S1x1x1x1x128_4 : S128.BroadcastsInDim S1x1x1x1x128 (![4] : Fin 1 → Fin S1x1x1x1x128.rank)
  bcast_S1x1x1x1x128_S4x16x64x64x128_0_1_2_3_4 : S1x1x1x1x128.BroadcastsInDim S4x16x64x64x128 (![0, 1, 2, 3, 4] : Fin 5 → Fin S4x16x64x64x128.rank)
  slices_S4x19x64x64x128_S4x16x64x64x128_0_2_0_0_0 : S4x19x64x64x128.Slices ![0, 2, 0, 0, 0] S4x16x64x64x128
  slices_S128x4_S128x1_0_1 : S128x4.Slices ![0, 1] S128x1
  slices_S4x19x64x64x128_S4x16x64x64x128_0_1_0_0_0 : S4x19x64x64x128.Slices ![0, 1, 0, 0, 0] S4x16x64x64x128
  slices_S128x4_S128x1_0_2 : S128x4.Slices ![0, 2] S128x1
  slices_S4x19x64x64x128_S4x16x64x64x128_0_0_0_0_0 : S4x19x64x64x128.Slices ![0, 0, 0, 0, 0] S4x16x64x64x128
  slices_S128x4_S128x1_0_3 : S128x4.Slices ![0, 3] S128x1
  dot_S4x16x64x64x128_S128x128_S4x16x64x64x128_4_0_0123_1_n_n_wf : DotDims.WF S4x16x64x64x128 S128x128 S4x16x64x64x128 [4] [0] [0, 1, 2, 3] [1] [] []

variable [Facts₀]

def dot_S4x16x64x64x128_S128x128_S4x16x64x64x128_4_0_0123_1_n_n : DotDims S4x16x64x64x128 S128x128 S4x16x64x64x128 where
  lhsContracting := [4]
  rhsContracting := [0]
  lhsNonContracting := [0, 1, 2, 3]
  rhsNonContracting := [1]
  lhsBatch := []
  rhsBatch := []
  wf := dot_S4x16x64x64x128_S128x128_S4x16x64x64x128_4_0_0123_1_n_n_wf

class Facts : Prop extends Facts₀ where

variable [Facts]
-- ==== Proof.CausalMix.lean ====
/-
  The function both programs compute, entry by entry over the extended reals.

  The input is a volume x[b, d, h, w, c]. Along the depth axis d it is filtered causally with four taps per channel:
  write x̂ for x moved three steps later along d, with a padding value z in front (x̂[e] = x[e - 3] for e ≥ 3, and z for
  e < 3). Entry (b, d, h, w, c) of the filtered volume is

      (((z₀ + x̂[3+d]·g[c,0]) + x̂[2+d]·g[c,1]) + x̂[1+d]·g[c,2]) + x̂[d]·g[c,3]

  (the other coordinates fixed), summed in exactly this order from a start value z₀. The taps g[c, k] are a table of
  sixteen rows repeated eight times down the channels. Then the channels are mixed by a square matrix and a bias is
  added:   out[b,d,h,w,o] = Σ_c filtered[b,d,h,w,c] · M[c,o] + bias[o].

  The padding value z and the start value z₀ stay parameters: both programs build each of them by the same expression,
  so nothing here depends on what they are, and no law of the extended reals beyond reading a finite sum is used.
-/
import Idealize.ShloMosaic.PureOps.Ideal
import Idealize.ShloMosaic.Lib.ValueIdx

noncomputable section

namespace Cert.CausalMix

open Idealize.ShloMosaic Idealize.ShloMosaic.ValueIdx

/-- The volume's shape: batch, depth, height, width, channel. -/
abbrev Vol : Shape := ⟨5, ![4, 16, 64, 64, 128]⟩
/-- The taps, one row of four per channel. -/
abbrev Taps : Shape := ⟨2, ![128, 4]⟩
/-- The taps as given: one row of four per channel of a block of sixteen. -/
abbrev BlockTaps : Shape := ⟨2, ![16, 4]⟩
/-- The channel-mixing matrix. -/
abbrev Mix : Shape := ⟨2, ![128, 128]⟩
/-- One value per channel. -/
abbrev Chan : Shape := ⟨1, ![128]⟩

/-- The block's sixteen rows of taps repeated eight times: row c of the result is row c mod 16 of the block. It is
    kept as the composition both programs print (a leading unit axis, eight copies along it, the two leading axes
    merged) and is never opened. -/
def tiled (k : BlockTaps.Idx → EReal) : Taps.Idx → EReal :=
  shapeCast Taps
    (broadcastInDim (⟨4, ![8, 16, 1, 4]⟩ : Shape) ![0, 1, 2, 3] (by decide)
      (shapeCast (⟨4, ![1, 16, 1, 4]⟩ : Shape) k (by decide))) (by decide)

/-- x̂: the volume three steps later along depth, the padding value `z` on the three steps in front. -/
def shifted (x : Vol.Idx → EReal) (z : EReal) (b : Fin 4) (e : Fin 19) (h w : Fin 64) (c : Fin 128) : EReal :=
  if he : 3 ≤ e.val then x (ix5 b (⟨e.val - 3, by have := e.isLt; omega⟩ : Fin 16) h w c) else z

/-- One entry of the filtered volume: the four taps, most recent depth step first, added in this order to `z₀`. -/
def filtered (x : Vol.Idx → EReal) (z z₀ : EReal) (g : Taps.Idx → EReal)
    (b : Fin 4) (d : Fin 16) (h w : Fin 64) (c : Fin 128) : EReal :=
  (((z₀ + shifted x z b (⟨3 + d.val, by have := d.isLt; omega⟩ : Fin 19) h w c * g (ix2 c (0 : Fin 4)))
      + shifted x z b (⟨2 + d.val, by have := d.isLt; omega⟩ : Fin 19) h w c * g (ix2 c (1 : Fin 4)))
      + shifted x z b (⟨1 + d.val, by have := d.isLt; omega⟩ : Fin 19) h w c * g (ix2 c (2 : Fin 4)))
      + shifted x z b (⟨d.val, by have := d.isLt; omega⟩ : Fin 19) h w c * g (ix2 c (3 : Fin 4))

/-- One entry of the result: the filtered channels mixed by `M`, plus the bias of the output channel. -/
def mixedAt (x : Vol.Idx → EReal) (z z₀ : EReal) (g : Taps.Idx → EReal) (M : Mix.Idx → EReal) (bias : Chan.Idx → EReal)
    (b : Fin 4) (d : Fin 16) (h w : Fin 64) (o : Fin 128) : EReal :=
  (∑ c : Fin 128, filtered x z z₀ g b d h w c * M (ix2 c o)) + bias (ix1 o)

/-- The whole result, as one function of the four arrays. -/
def mixed (x : Vol.Idx → EReal) (z z₀ : EReal) (g : Taps.Idx → EReal) (M : Mix.Idx → EReal) (bias : Chan.Idx → EReal) :
    Vol.Idx → EReal :=
  fun i => mixedAt x z z₀ g M bias (i 0) (i 1) (i 2) (i 3) (i 4)

theorem mixed_apply (x : Vol.Idx → EReal) (z z₀ : EReal) (g : Taps.Idx → EReal) (M : Mix.Idx → EReal)
    (bias : Chan.Idx → EReal) (b : Fin 4) (d : Fin 16) (h w : Fin 64) (o : Fin 128) :
    mixed x z z₀ g M bias (ix5 b d h w o) = mixedAt x z z₀ g M bias b d h w o := rfl

/-- The padding value as both programs spell it: the integer zero converted to a float. -/
abbrev padValue : EReal := FloatOps.sitofp (F := Ideal) .f32 (0#32 : BitVec 32)
/-- The start value of the four-tap sum as both programs spell it: the float whose word is zero. -/
abbrev startValue : EReal := FloatOps.ofBits (F := Ideal) .f32 0x00000000#32

end Cert.CausalMix

end
-- ==== Proof.RefValue.lean ====
/-
  The reference program's result, read entry by entry, is the causal four-tap filter along depth followed by the
  channel mix (CausalMix.mixed) of its four arguments.
-/
import proofs.«113829_j69750268887568_1_alg».proof.Proof.Gen.ReferenceIdeal.Read
import proofs.«113829_j69750268887568_1_alg».proof.Proof.CausalMix
import Idealize.ShloMosaic.Lib.KernelVsHost

noncomputable section

namespace Cert.ReferenceIdeal.RefValue

open Cert.ReferenceIdeal Cert.ReferenceIdeal.Read Idealize.ShloMosaic Idealize.ShloMosaic.ValueIdx Cert.CausalMix

/-- The reference's repeated taps are the specification's. -/
theorem taps_eq (x1 : (⟨S16x4, .f32⟩ : BufTy).Contents (Elt Ideal)) : val_main_v2 (F := Ideal) x1 = tiled x1 := rfl

/-- The padded volume read at an entry: the input three depth steps earlier, the padding value in front. -/
theorem padded_apply (x0 : (⟨S4x16x64x64x128, .f32⟩ : BufTy).Contents (Elt Ideal))
    (b : Fin 4) (e : Fin 19) (h w : Fin 64) (c : Fin 128) :
    val_main_v3 (F := Ideal) x0 (ix5 b e h w c) = shifted x0 padValue b e h w c := by
  unfold val_main_v3 shifted
  by_cases he : 3 ≤ e.val
  · -- from the third depth step on, the entry lies inside the operand, three steps back along depth
    rw [dif_pos he]
    exact pad_apply_of_inside _ _ _ x0 _ _ _
      (ix5 b e h w c) (ix5 b (⟨e.val - 3, by have := e.isLt; omega⟩ : Fin 16) h w c) (fun a => match a with
        | ⟨0, _⟩ => by show b.val = 0 + b.val * (0 + 1); omega
        | ⟨1, _⟩ => by show e.val = 3 + (e.val - 3) * (0 + 1); omega
        | ⟨2, _⟩ => by show h.val = 0 + h.val * (0 + 1); omega
        | ⟨3, _⟩ => by show w.val = 0 + w.val * (0 + 1); omega
        | ⟨4, _⟩ => by show c.val = 0 + c.val * (0 + 1); omega)
  · -- the first three depth steps lie in the low padding of the depth axis
    rw [dif_neg he]
    exact (pad_apply_of_not_inside _ _ _ x0 _ _ _
      (ix5 b e h w c) (1 : Fin 5)
      (by show ¬(3 ≤ e.val ∧ (e.val - 3) % (0 + 1) = 0 ∧ (e.val - 3) / (0 + 1) < 16); omega)).trans rfl

/-- The slice of the padded volume that starts three depth steps in, read at an entry. -/
theorem slice3_apply (x0 : (⟨S4x16x64x64x128, .f32⟩ : BufTy).Contents (Elt Ideal))
    (b : Fin 4) (d : Fin 16) (h w : Fin 64) (c : Fin 128) :
    val_main_v5 (F := Ideal) x0 (ix5 b d h w c)
      = shifted x0 padValue b (⟨3 + d.val, by have := d.isLt; omega⟩ : Fin 19) h w c := by
  rw [val_main_v5_apply]
  refine Eq.trans (congrArg (val_main_v3 (F := Ideal) x0) ?_) (padded_apply x0 b ⟨3 + d.val, by have := d.isLt; omega⟩ h w c)
  exact funext fun a => match a with
    | ⟨0, _⟩ => rfl
    | ⟨1, _⟩ => rfl
    | ⟨2, _⟩ => rfl
    | ⟨3, _⟩ => rfl
    | ⟨4, _⟩ => rfl

/-- The slice of the padded volume that starts two depth steps in, read at an entry. -/
theorem slice2_apply (x0 : (⟨S4x16x64x64x128, .f32⟩ : BufTy).Contents (Elt Ideal))
    (b : Fin 4) (d : Fin 16) (h w : Fin 64) (c : Fin 128) :
    val_main_v12 (F := Ideal) x0 (ix5 b d h w c)
      = shifted x0 padValue b (⟨2 + d.val, by have := d.isLt; omega⟩ : Fin 19) h w c := by
  rw [val_main_v12_apply]
  refine Eq.trans (congrArg (val_main_v3 (F := Ideal) x0) ?_) (padded_apply x0 b ⟨2 + d.val, by have := d.isLt; omega⟩ h w c)
  exact funext fun a => match a with
    | ⟨0, _⟩ => rfl
    | ⟨1, _⟩ => rfl
    | ⟨2, _⟩ => rfl
    | ⟨3, _⟩ => rfl
    | ⟨4, _⟩ => rfl

/-- The slice of the padded volume that starts one depth step in, read at an entry. -/
theorem slice1_apply (x0 : (⟨S4x16x64x64x128, .f32⟩ : BufTy).Contents (Elt Ideal))
    (b : Fin 4) (d : Fin 16) (h w : Fin 64) (c : Fin 128) :
    val_main_v19 (F := Ideal) x0 (ix5 b d h w c)
      = shifted x0 padValue b (⟨1 + d.val, by have := d.isLt; omega⟩ : Fin 19) h w c := by
  rw [val_main_v19_apply]
  refine Eq.trans (congrArg (val_main_v3 (F := Ideal) x0) ?_) (padded_apply x0 b ⟨1 + d.val, by have := d.isLt; omega⟩ h w c)
  exact funext fun a => match a with
    | ⟨0, _⟩ => rfl
    | ⟨1, _⟩ => rfl
    | ⟨2, _⟩ => rfl
    | ⟨3, _⟩ => rfl
    | ⟨4, _⟩ => rfl

/-- The slice of the padded volume that starts at its first depth step, read at an entry. -/
theorem slice0_apply (x0 : (⟨S4x16x64x64x128, .f32⟩ : BufTy).Contents (Elt Ideal))
    (b : Fin 4) (d : Fin 16) (h w : Fin 64) (c : Fin 128) :
    val_main_v26 (F := Ideal) x0 (ix5 b d h w c)
      = shifted x0 padValue b (⟨d.val, by have := d.isLt; omega⟩ : Fin 19) h w c := by
  rw [val_main_v26_apply]
  refine Eq.trans (congrArg (val_main_v3 (F := Ideal) x0) ?_) (padded_apply x0 b ⟨d.val, by have := d.isLt; omega⟩ h w c)
  exact funext fun a => match a with
    | ⟨0, _⟩ => rfl
    | ⟨1, _⟩ => rfl
    | ⟨2, _⟩ => rfl
    | ⟨3, _⟩ => rfl
    | ⟨4, _⟩ => rfl

/-- Column 0 of the repeated taps spread over the volume: at an entry it is the tap of that entry's channel. -/
theorem col0_apply (x1 : (⟨S16x4, .f32⟩ : BufTy).Contents (Elt Ideal))
    (b : Fin 4) (d : Fin 16) (h w : Fin 64) (c : Fin 128) :
    val_main_v9 (F := Ideal) x1 (ix5 b d h w c) = tiled x1 (ix2 c (0 : Fin 4)) := by
  rw [val_main_v9_apply, val_main_v8_apply, val_main_v7_apply, val_main_v6_apply, taps_eq]
  refine congrArg (tiled x1) (funext fun a => Fin.ext ?_)
  match a with
  | ⟨0, _⟩ => show c.val / 1 = c.val; omega
  | ⟨1, _⟩ => rfl

/-- Column 1 of the repeated taps spread over the volume. -/
theorem col1_apply (x1 : (⟨S16x4, .f32⟩ : BufTy).Contents (Elt Ideal))
    (b : Fin 4) (d : Fin 16) (h w : Fin 64) (c : Fin 128) :
    val_main_v16 (F := Ideal) x1 (ix5 b d h w c) = tiled x1 (ix2 c (1 : Fin 4)) := by
  rw [val_main_v16_apply, val_main_v15_apply, val_main_v14_apply, val_main_v13_apply, taps_eq]
  refine congrArg (tiled x1) (funext fun a => Fin.ext ?_)
  match a with
  | ⟨0, _⟩ => show c.val / 1 = c.val; omega
  | ⟨1, _⟩ => rfl

/-- Column 2 of the repeated taps spread over the volume. -/
theorem col2_apply (x1 : (⟨S16x4, .f32⟩ : BufTy).Contents (Elt Ideal))
    (b : Fin 4) (d : Fin 16) (h w : Fin 64) (c : Fin 128) :
    val_main_v23 (F := Ideal) x1 (ix5 b d h w c) = tiled x1 (ix2 c (2 : Fin 4)) := by
  rw [val_main_v23_apply, val_main_v22_apply, val_main_v21_apply, val_main_v20_apply, taps_eq]
  refine congrArg (tiled x1) (funext fun a => Fin.ext ?_)
  match a with
  | ⟨0, _⟩ => show c.val / 1 = c.val; omega
  | ⟨1, _⟩ => rfl

/-- Column 3 of the repeated taps spread over the volume. -/
theorem col3_apply (x1 : (⟨S16x4, .f32⟩ : BufTy).Contents (Elt Ideal))
    (b : Fin 4) (d : Fin 16) (h w : Fin 64) (c : Fin 128) :
    val_main_v30 (F := Ideal) x1 (ix5 b d h w c) = tiled x1 (ix2 c (3 : Fin 4)) := by
  rw [val_main_v30_apply, val_main_v29_apply, val_main_v28_apply, val_main_v27_apply, taps_eq]
  refine congrArg (tiled x1) (funext fun a => Fin.ext ?_)
  match a with
  | ⟨0, _⟩ => show c.val / 1 = c.val; omega
  | ⟨1, _⟩ => rfl

/-- The four-tap sum read at an entry. -/
theorem filtered_apply (x0 : (⟨S4x16x64x64x128, .f32⟩ : BufTy).Contents (Elt Ideal)) (x1 : (⟨S16x4, .f32⟩ : BufTy).Contents (Elt Ideal))
    (b : Fin 4) (d : Fin 16) (h w : Fin 64) (c : Fin 128) :
    val_main_v32 (F := Ideal) x0 x1 (ix5 b d h w c) = filtered x0 padValue startValue (tiled x1) b d h w c := by
  rw [val_main_v32_apply, val_main_v31_apply, val_main_v25_apply, val_main_v24_apply, val_main_v18_apply,
    val_main_v17_apply, val_main_v11_apply, val_main_v10_apply, val_main_v4_apply, val_main_cst_apply,
    slice3_apply, slice2_apply, slice1_apply, slice0_apply, col0_apply, col1_apply, col2_apply, col3_apply]
  rfl

/-- The reference's last stage is the specification. -/
theorem value (x0 : (⟨S4x16x64x64x128, .f32⟩ : BufTy).Contents (Elt Ideal)) (x1 : (⟨S16x4, .f32⟩ : BufTy).Contents (Elt Ideal))
    (x2 : (⟨S128x128, .f32⟩ : BufTy).Contents (Elt Ideal)) (x3 : (⟨S128, .f32⟩ : BufTy).Contents (Elt Ideal)) :
    val_main_v36 (F := Ideal) x0 x1 x2 x3 = mixed x0 padValue startValue (tiled x1) x2 x3 := by
  funext i
  obtain ⟨b, d, h, w, o, rfl⟩ : ∃ (b : Fin 4) (d : Fin 16) (h w : Fin 64) (o : Fin 128), i = ix5 b d h w o :=
    ⟨i 0, i 1, i 2, i 3, i 4, eq_ix5 i⟩
  rw [mixed_apply, val_main_v36_apply, val_main_v33_apply, val_main_v35_apply, val_main_v34_apply]
  unfold mixedAt
  -- the contraction runs over the channel of the filtered volume and the row of the matrix; the bias is read at the
  -- output channel
  refine congrArg₂ (fun s t : EReal => s + t) (Finset.sum_congr rfl fun k _ => ?_) (congrArg x3 ?_)
  · refine congrArg₂ (fun s t : EReal => s * t) ?_ (congrArg x2 ?_)
    · refine Eq.trans (congrArg (val_main_v32 (F := Ideal) x0 x1) ?_) (filtered_apply x0 x1 b d h w k)
      exact funext fun a => match a with
        | ⟨0, _⟩ => rfl
        | ⟨1, _⟩ => rfl
        | ⟨2, _⟩ => rfl
        | ⟨3, _⟩ => rfl
        | ⟨4, _⟩ => rfl
    · exact funext fun a => match a with
        | ⟨0, _⟩ => rfl
        | ⟨1, _⟩ => rfl
  · exact funext fun a => match a with
      | ⟨0, _⟩ => rfl

end Cert.ReferenceIdeal.RefValue

end
-- ==== Proof.BlockValue.lean ====
/-
  What the kernel's body computes from the four blocks it loads, read at one entry of the block it stores.
-/
import proofs.«113829_j69750268887568_1_alg».proof.Proof.Gen.KernelIdeal.Skeleton
import proofs.«113829_j69750268887568_1_alg».proof.Proof.CausalMix
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx Cert.CausalMix

/-- The four-tap sum over a loaded block: the block holds all nineteen padded depth steps of 512 positions. -/
def blockFiltered (xb : Vec Ideal S1x19x512x128 .f32) (g : Vec Ideal S128x4 .f32) (d : Fin 16) (s : Fin 512) (c : Fin 128) : EReal :=
  (((startValue + xb (ix4 (0 : Fin 1) (⟨3 + d.val, by have := d.isLt; omega⟩ : Fin 19) s c) * g (ix2 c (0 : Fin 4)))
      + xb (ix4 (0 : Fin 1) (⟨2 + d.val, by have := d.isLt; omega⟩ : Fin 19) s c) * g (ix2 c (1 : Fin 4)))
      + xb (ix4 (0 : Fin 1) (⟨1 + d.val, by have := d.isLt; omega⟩ : Fin 19) s c) * g (ix2 c (2 : Fin 4)))
      + xb (ix4 (0 : Fin 1) (⟨d.val, by have := d.isLt; omega⟩ : Fin 19) s c) * g (ix2 c (3 : Fin 4))

/-! ## The layout operations of the body, each read at explicit coordinates -/

section Reads
variable {α : Type}

/-- Column `k` of the taps, spread over depth and position: at `(d, s, c)` it is the tap of channel `c`. -/
theorem tapColumn_apply (g : S128x4.Idx → α) (k : Nat) (hk : k < 4) (h1 : S128x4.Slices ![0, k] S128x1)
    (h2 : S128x1.ShapeCasts S128) (h3 : S128.ShapeCasts S1x1x128) (h4 : S1x1x128.Broadcasts S16x512x128)
    (d : Fin 16) (s : Fin 512) (c : Fin 128) :
    broadcastTo S16x512x128 (shapeCast S1x1x128 (shapeCast S128 (extractStridedSlice S128x1 ![0, k] g h1) h2) h3) h4 (ix3 d s c)
      = g (ix2 c (⟨k, hk⟩ : Fin 4)) := by
  -- the broadcast reads the unit axes at 0 and the channel axis at c
  refine (broadcastTo_apply _ h4 (ix3 d s c) (ix3 (0 : Fin 1) (0 : Fin 1) c) (fun a => match a with
    | ⟨0, _⟩ => rfl
    | ⟨1, _⟩ => rfl
    | ⟨2, _⟩ => rfl)).trans ?_
  -- [1,1,128] at (0,0,c) is [128] at c
  refine (shapeCast_apply _ h3 (ix3 (0 : Fin 1) (0 : Fin 1) c) (ix1 c) (by
    rw [Shape.rowMajor_val_one, Shape.rowMajor_val_three]
    show c.val = ((0 * 1 + 0) * 128 + c.val)
    omega)).trans ?_
  -- [128] at c is [128,1] at (c,0)
  refine (shapeCast_apply _ h2 (ix1 c) (ix2 c (0 : Fin 1)) (by
    rw [Shape.rowMajor_val_two, Shape.rowMajor_val_one]
    show c.val * 1 + 0 = c.val
    omega)).trans ?_
  -- the one-column slice at offset k
  exact slice2_axis1_apply k g h1 c (0 : Fin 1) (⟨k, hk⟩ : Fin 4) (by show k = k + 0; omega)

/-- The block with its unit axis dropped, cut from depth `off`: at `(d, s, c)` it is the block at depth `off + d`. -/
theorem depthSlice_apply (xb : S1x19x512x128.Idx → α) (off : Nat) (h0 : S1x19x512x128.ShapeCasts S19x512x128)
    (h1 : S19x512x128.Slices ![off, 0, 0] S16x512x128) (d : Fin 16) (s : Fin 512) (c : Fin 128) (e : Fin 19)
    (he : e.val = off + d.val) :
    extractStridedSlice S16x512x128 ![off, 0, 0] (shapeCast S19x512x128 xb h0) h1 (ix3 d s c) = xb (ix4 (0 : Fin 1) e s c) := by
  refine (extractStridedSlice_apply _ _ h1 (ix3 d s c) (ix3 e s c) (fun a => match a with
    | ⟨0, _⟩ => he
    | ⟨1, _⟩ => by show s.val = 0 + s.val; omega
    | ⟨2, _⟩ => by show c.val = 0 + c.val; omega)).trans ?_
  exact shapeCast_1abc_abc_apply xb h0 e s c

/-- Depth and position merged into one row axis: row `d * 512 + s` is entry `(d, s)`. -/
theorem mergeRows_apply (v : S16x512x128.Idx → α) (h : S16x512x128.ShapeCasts S8192x128) (d : Fin 16) (s : Fin 512) (c : Fin 128)
    (r : Fin 8192) (hr : r.val = d.val * 512 + s.val) :
    shapeCast S8192x128 v h (ix2 r c) = v (ix3 d s c) :=
  shapeCast_apply v h (ix2 r c) (ix3 d s c) (by
    rw [Shape.rowMajor_val_three, Shape.rowMajor_val_two]
    show (d.val * 512 + s.val) * 128 + c.val = r.val * 128 + c.val
    rw [hr])

/-- The row axis split back into depth and position: entry `(d, s)` is row `d * 512 + s`. -/
theorem splitRows_apply (v : S8192x128.Idx → α) (h : S8192x128.ShapeCasts S16x512x128) (d : Fin 16) (s : Fin 512) (c : Fin 128)
    (r : Fin 8192) (hr : r.val = d.val * 512 + s.val) :
    shapeCast S16x512x128 v h (ix3 d s c) = v (ix2 r c) :=
  shapeCast_apply v h (ix3 d s c) (ix2 r c) (by
    rw [Shape.rowMajor_val_three, Shape.rowMajor_val_two]
    show r.val * 128 + c.val = (d.val * 512 + s.val) * 128 + c.val
    rw [hr])

/-- The bias as one row, repeated over all rows: at `(r, o)` it is the bias of channel `o`. -/
theorem biasRows_apply (bias : S128.Idx → α) (h1 : S128.ShapeCasts S1x128) (h2 : S1x128.Broadcasts S8192x128) (r : Fin 8192) (o : Fin 128) :
    broadcastTo S8192x128 (shapeCast S1x128 bias h1) h2 (ix2 r o) = bias (ix1 o) :=
  (broadcastTo_1b_ab_apply _ h2 r o).trans (shapeCast_a_1a_apply bias h1 (0 : Fin 1) o)

end Reads

/-! ## The contraction: row `r` of the left operand against column `o` of the right -/

theorem lhs_dot_0 (i : S8192x128.Idx) (q : dot_S8192x128_S128x128_S8192x128_1_0_0_1_n_n.contr.Idx) :
    (dot_S8192x128_S128x128_S8192x128_1_0_0_1_n_n.lhsIdx i q 0).val = (i 0).val := by
  unfold DotDims.lhsIdx
  rw [dif_neg (show ¬(0 : Fin S8192x128.rank) ∈ dot_S8192x128_S128x128_S8192x128_1_0_0_1_n_n.lhsBatch by decide), dif_pos (show (0 : Fin S8192x128.rank) ∈ dot_S8192x128_S128x128_S8192x128_1_0_0_1_n_n.lhsNonContracting by decide)]
  rfl
theorem lhs_dot_1 (i : S8192x128.Idx) (q : dot_S8192x128_S128x128_S8192x128_1_0_0_1_n_n.contr.Idx) :
    (dot_S8192x128_S128x128_S8192x128_1_0_0_1_n_n.lhsIdx i q 1).val = (q ⟨0, by decide⟩).val :=
  dot_S8192x128_S128x128_S8192x128_1_0_0_1_n_n.lhsIdx_val_of_single rfl i q
theorem rhs_dot_0 (i : S8192x128.Idx) (q : dot_S8192x128_S128x128_S8192x128_1_0_0_1_n_n.contr.Idx) :
    (dot_S8192x128_S128x128_S8192x128_1_0_0_1_n_n.rhsIdx i q 0).val = (q ⟨0, by decide⟩).val :=
  dot_S8192x128_S128x128_S8192x128_1_0_0_1_n_n.rhsIdx_val_of_single rfl i q
theorem rhs_dot_1 (i : S8192x128.Idx) (q : dot_S8192x128_S128x128_S8192x128_1_0_0_1_n_n.contr.Idx) :
    (dot_S8192x128_S128x128_S8192x128_1_0_0_1_n_n.rhsIdx i q 1).val = (i 1).val := by
  unfold DotDims.rhsIdx
  rw [dif_neg (show ¬(1 : Fin S128x128.rank) ∈ dot_S8192x128_S128x128_S8192x128_1_0_0_1_n_n.rhsBatch by decide), dif_pos (show (1 : Fin S128x128.rank) ∈ dot_S8192x128_S128x128_S8192x128_1_0_0_1_n_n.rhsNonContracting by decide)]
  rfl

/-- The matrix product into the zero accumulator, at entry `(r, o)`: the sum over the 128 channels. -/
theorem matmul_read {φ₁ φ₂ : FTy} (L : FVec Ideal S8192x128 φ₁) (R : FVec Ideal S128x128 φ₂) (r : Fin 8192) (o : Fin 128) :
    matmul dot_S8192x128_S128x128_S8192x128_1_0_0_1_n_n none L R (constant S8192x128 .f32 0x00000000#32) (ix2 r o)
      = ∑ c : Fin 128, L (ix2 r c) * R (ix2 c o) := by
  simp only [matmul]
  rw [Ideal.matmul_constant_zero_apply, ← Equiv.sum_comp (ValueIdx.contrEquiv1 dot_S8192x128_S128x128_S8192x128_1_0_0_1_n_n 128 rfl rfl).symm]
  refine Finset.sum_congr rfl fun k _ => ?_
  have hk := ValueIdx.contrEquiv1_symm_val dot_S8192x128_S128x128_S8192x128_1_0_0_1_n_n 128 rfl rfl k
  have el : dot_S8192x128_S128x128_S8192x128_1_0_0_1_n_n.lhsIdx (ix2 r o) ((ValueIdx.contrEquiv1 dot_S8192x128_S128x128_S8192x128_1_0_0_1_n_n 128 rfl rfl).symm k) = ix2 r k := funext fun a => Fin.ext (by
    match a with
    | ⟨0, _⟩ => exact lhs_dot_0 _ _
    | ⟨1, _⟩ => exact (lhs_dot_1 _ _).trans hk)
  have er : dot_S8192x128_S128x128_S8192x128_1_0_0_1_n_n.rhsIdx (ix2 r o) ((ValueIdx.contrEquiv1 dot_S8192x128_S128x128_S8192x128_1_0_0_1_n_n 128 rfl rfl).symm k) = ix2 k o := funext fun a => Fin.ext (by
    match a with
    | ⟨0, _⟩ => exact (rhs_dot_0 _ _).trans hk
    | ⟨1, _⟩ => exact rhs_dot_1 _ _)
  rw [el, er]

/-- The stored block at entry (0, d, s, o): the block's filtered channels mixed by the loaded matrix, plus the bias. -/
theorem payload_apply (xb : Vec Ideal S1x19x512x128 .f32) (g : Vec Ideal S128x4 .f32) (M : Vec Ideal S128x128 .f32) (bias : Vec Ideal S128 .f32)
    (d : Fin 16) (s : Fin 512) (o : Fin 128) :
    k0_pay1 (k0_pay2 xb g M bias) (ix4 (0 : Fin 1) d s o)
      = (∑ c : Fin 128, blockFiltered xb g d s c * M (ix2 c o)) + bias (ix1 o) := by
  have hr : d.val * 512 + s.val < 8192 := by have := d.isLt; have := s.isLt; omega
  unfold k0_pay1 k0_pay2
  -- the stored block's unit axis, then the row axis split into depth and position
  refine (shapeCast_abc_1abc_apply _ _ (0 : Fin 1) d s o).trans ?_
  refine (splitRows_apply _ _ d s o ⟨d.val * 512 + s.val, hr⟩ rfl).trans ?_
  -- the product plus the bias row
  refine congrArg₂ (· + ·) ?_ (biasRows_apply bias _ _ _ o)
  refine (matmul_read _ _ _ o).trans ?_
  refine Finset.sum_congr rfl fun c _ => ?_
  refine congrArg₂ (· * ·) ?_ rfl
  -- the left operand's row is the running sum at (d, s)
  refine (truncf_apply (φ := .f32) (ψ := .bf16) _ _ _).trans ?_
  refine (mergeRows_apply _ _ d s c ⟨d.val * 512 + s.val, hr⟩ rfl).trans ?_
  -- the four products, each a depth slice times a tap column, summed onto the start value
  unfold blockFiltered
  refine congrArg₂ (· + ·) (congrArg₂ (· + ·) (congrArg₂ (· + ·) (congrArg₂ (· + ·) rfl ?_) ?_) ?_) ?_
  · exact congrArg₂ (· * ·) (depthSlice_apply xb 3 _ _ d s c _ rfl) (tapColumn_apply g 0 (by decide) _ _ _ _ d s c)
  · exact congrArg₂ (· * ·) (depthSlice_apply xb 2 _ _ d s c _ rfl) (tapColumn_apply g 1 (by decide) _ _ _ _ d s c)
  · exact congrArg₂ (· * ·) (depthSlice_apply xb 1 _ _ d s c _ rfl) (tapColumn_apply g 2 (by decide) _ _ _ _ d s c)
  · exact congrArg₂ (· * ·) (depthSlice_apply xb 0 _ _ d s c _ (by show d.val = 0 + d.val; omega)) (tapColumn_apply g 3 (by decide) _ _ _ _ d s c)

end Cert.KernelIdeal.BlockValue

end
-- ==== Proof.ArrayValue.lean ====
/-
  From the blocks to the array: what the kernel's output array holds after every grid point has written its block back.

  The grid is 4 × 8: point (b, j) works on batch b and positions 512 j … 512 j + 511 of the 4096 merged positions
  (h, w) ↦ 64 h + w. Its input block is all nineteen padded depth steps of those positions; the taps, the matrix and the
  bias are whole. Its output block is the sixteen depth steps of those positions. The blocks tile the array, so the
  array ends holding one function of the arguments: CausalMix.mixedAt read at position s as (h, w) = (s / 64, s % 64).
-/
import proofs.«113829_j69750268887568_1_alg».proof.Proof.Gen.KernelIdeal.Frame
import proofs.«113829_j69750268887568_1_alg».proof.Proof.BlockValue
import proofs.«113829_j69750268887568_1_alg».proof.Proof.CausalMix
import Idealize.ShloMosaic.Lib.KernelVsHost
import Idealize.ShloMosaic.Lib.StableHlo.Run
import Idealize.ShloMosaic.Lib.Pipeline.Value

noncomputable section

namespace Cert.KernelIdeal.ArrayValue

open Cert.KernelIdeal Cert.KernelIdeal.Gen Idealize.ShloMosaic Idealize.ShloMosaic.TcCoe Idealize.ShloMosaic.ValueIdx
open Idealize.SL.Sem Cert.CausalMix
open Idealize.ShloMosaic.Pipeline (Dat Cfg Window)

variable (m : (ℓ : Loc nD τ sig) → Buf (Elt Ideal) ℓ)

/-- The four argument arrays as launched, at their literal types. -/
abbrev argX (c : Dev nD) : S4x16x64x64x128.Idx → EReal := m ((c.tc : Thread nD τ).loc main_arg0)
abbrev argK (c : Dev nD) : S16x4.Idx → EReal := m ((c.tc : Thread nD τ).loc main_arg1)
abbrev argM (c : Dev nD) : S128x128.Idx → EReal := m ((c.tc : Thread nD τ).loc main_arg2)
abbrev argB (c : Dev nD) : S128.Idx → EReal := m ((c.tc : Thread nD τ).loc main_arg3)

/-- One entry of the output array with the positions merged: position s is (h, w) = (s / 64, s % 64). -/
def mergedAt (c : Dev nD) (b : Fin 4) (d : Fin 16) (s : Fin 4096) (o : Fin 128) : EReal :=
  mixedAt (argX m c) padValue startValue (tiled (argK m c)) (argM m c) (argB m c) b d
    (⟨s.val / 64, by have := s.isLt; omega⟩ : Fin 64) (⟨s.val % 64, by omega⟩ : Fin 64) o

/-- The output array with the positions merged, as one function of the arguments. -/
def merged (c : Dev nD) : S4x16x4096x128.Idx → EReal := fun i => mergedAt m c (i 0) (i 1) (i 2) (i 3)

/-! ## The arrays the region finds -/

/-- The taps the region finds are the specification's repeated taps of the argument. -/
theorem entry_taps (c : Dev nD) : (V m c main_v2 : S128x4.Idx → EReal) = tiled (argK m c) := by
  dsimp only [V, V0]
  simp only [hostOps0, hostOps0_1, List.flatten_cons, List.flatten_nil, List.append_nil, List.cons_append, List.nil_append]
  after_results
  rfl

/-- The padded volume the region finds: the argument with its positions merged, three padding steps in front along depth. -/
theorem entry_padded (c : Dev nD) : (V m c main_v4 : S4x19x4096x128.Idx → EReal)
    = pad S4x19x4096x128 ![0, 3, 0, 0] ![0, 0, 0, 0] ![0, 0, 0, 0]
        (shapeCast S4x16x4096x128 (argX m c) shapeCasts_S4x16x64x64x128_S4x16x4096x128)
        (sitofp (F := Ideal) .f32 (constantI S_ 32 0#32)) pads_S4x16x4096x128_S4x19x4096x128_000_300_000_000 h_S_ := by
  dsimp only [V, V0]
  simp only [hostOps0, hostOps0_1, List.flatten_cons, List.flatten_nil, List.append_nil, List.cons_append, List.nil_append]
  after_results
  rfl

/-- The volume with its positions merged, read at an entry: position s is (h, w) = (s / 64, s % 64). -/
theorem merged_volume_apply (x : S4x16x64x64x128.Idx → EReal) (b : Fin 4) (d : Fin 16) (s : Fin 4096) (ch : Fin 128) :
    shapeCast S4x16x4096x128 x shapeCasts_S4x16x64x64x128_S4x16x4096x128 (ix4 b d s ch)
      = x (ix5 b d (⟨s.val / 64, by have := s.isLt; omega⟩ : Fin 64) (⟨s.val % 64, by omega⟩ : Fin 64) ch) :=
  shapeCast_apply x shapeCasts_S4x16x64x64x128_S4x16x4096x128 (ix4 b d s ch) _ (by
    rw [Shape.rowMajor_val_five, Shape.rowMajor_val_four]
    show (((b.val * 16 + d.val) * 64 + s.val / 64) * 64 + s.val % 64) * 128 + ch.val = ((b.val * 16 + d.val) * 4096 + s.val) * 128 + ch.val
    omega)

/-- The padded volume the region finds, read at an entry: the argument three depth steps earlier at position
    (s / 64, s % 64), the padding value in front. -/
theorem entry_padded_apply (c : Dev nD) (b : Fin 4) (e : Fin 19) (s : Fin 4096) (ch : Fin 128) :
    (V m c main_v4 : S4x19x4096x128.Idx → EReal) (ix4 b e s ch)
      = shifted (argX m c) padValue b e (⟨s.val / 64, by have := s.isLt; omega⟩ : Fin 64) (⟨s.val % 64, by omega⟩ : Fin 64) ch := by
  rw [entry_padded]
  unfold shifted
  by_cases he : 3 ≤ e.val
  · rw [dif_pos he]
    refine (pad_apply_of_inside _ _ _ _ _ pads_S4x16x4096x128_S4x19x4096x128_000_300_000_000 h_S_ (ix4 b e s ch)
      (ix4 b (⟨e.val - 3, by have := e.isLt; omega⟩ : Fin 16) s ch) (fun a => match a with
        | ⟨0, _⟩ => by show b.val = 0 + b.val * (0 + 1); omega
        | ⟨1, _⟩ => by show e.val = 3 + (e.val - 3) * (0 + 1); omega
        | ⟨2, _⟩ => by show s.val = 0 + s.val * (0 + 1); omega
        | ⟨3, _⟩ => by show ch.val = 0 + ch.val * (0 + 1); omega)).trans ?_
    exact merged_volume_apply (argX m c) b _ s ch
  · rw [dif_neg he]
    exact (pad_apply_of_not_inside _ _ _ _ _ pads_S4x16x4096x128_S4x19x4096x128_000_300_000_000 h_S_ (ix4 b e s ch) (1 : Fin 4)
      (by show ¬(3 ≤ e.val ∧ (e.val - 3) % (0 + 1) = 0 ∧ (e.val - 3) / (0 + 1) < 16); omega)).trans rfl

/-! ## The blocks at a grid point -/

theorem zeros4 : (![0, 0, 0, 0] : Fin 4 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The index maps over the grid: the input block moves with the output block on the batch and position axes and
    takes the whole depth and channel axes; the taps, the matrix and the bias are whole at every point. -/
theorem index_facts : ∀ t : Fin cfg0.N,
    win0_0.index t (0 : Fin 4) = win0_4.index t (0 : Fin 4) ∧ win0_0.index t (1 : Fin 4) = 0
    ∧ win0_0.index t (2 : Fin 4) = win0_4.index t (2 : Fin 4) ∧ win0_0.index t (3 : Fin 4) = 0
    ∧ win0_4.index t (0 : Fin 4) ≤ 3 ∧ win0_4.index t (1 : Fin 4) = 0
    ∧ win0_4.index t (2 : Fin 4) ≤ 7 ∧ win0_4.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 1) = 0 :=
  (by decide +kernel : ∀ t : Fin grid0.N, _)

/-- Every (batch, block of positions) is some point's. -/
theorem index_onto : ∀ (q0 : Fin 4) (q2 : Fin 8), ∃ t : Fin cfg0.N, win0_4.index t = ![q0.val, 0, q2.val, 0] :=
  (by decide +kernel : ∀ (q0 : Fin 4) (q2 : Fin 8), ∃ t : Fin grid0.N, win0_4.index t = ![q0.val, 0, q2.val, 0])

/-- The batch a point works on. -/
def batchOf (t : Fin cfg0.N) : Fin 4 := ⟨win0_4.index t (0 : Fin 4), by have := (index_facts t).2.2.2.2.1; omega⟩
/-- The block of 512 positions a point works on. -/
def tileOf (t : Fin cfg0.N) : Fin 8 := ⟨win0_4.index t (2 : Fin 4), by have := (index_facts t).2.2.2.2.2.2.1; omega⟩

/-- Position s of a point's block among the 4096 merged positions. -/
def posOf (t : Fin cfg0.N) (s : Fin 512) : Fin 4096 := ⟨(tileOf t).val * 512 + s.val, by have := (tileOf t).isLt; have := s.isLt; omega⟩

/-- The input block at a point is the padded volume at the point's batch and positions. -/
theorem block_padded_apply (c : Dev nD) (t : Fin cfg0.N) (e : Fin 19) (s : Fin 512) (ch : Fin 128) :
    iblk m c 0 t (ix4 (0 : Fin 1) e s ch) = (V m c main_v4 : S4x19x4096x128.Idx → EReal) (ix4 (batchOf t) e (posOf t s) ch) := by
  obtain ⟨e0, e1, e2, e3, -⟩ := index_facts t
  show V m c main_v4 (((cfg0.win 0).blk t).view.emb (ix4 (0 : Fin 1) e s ch)) = V m c main_v4 _
  refine congrArg (V m c main_v4) (funext fun a => Fin.ext ?_)
  match a with
  | ⟨0, _⟩ => show win0_0.index t (0 : Fin 4) * 1 + 1 * 0 = win0_4.index t (0 : Fin 4); omega
  | ⟨1, _⟩ => show win0_0.index t (1 : Fin 4) * 19 + 1 * e.val = e.val; omega
  | ⟨2, _⟩ => show win0_0.index t (2 : Fin 4) * 512 + 1 * s.val = win0_4.index t (2 : Fin 4) * 512 + s.val; omega
  | ⟨3, _⟩ => show win0_0.index t (3 : Fin 4) * 128 + 1 * ch.val = ch.val; omega

/-- The taps' block is the whole taps array. -/
theorem block_taps (c : Dev nD) (t : Fin cfg0.N) : (iblk m c 1 t : S128x4.Idx → EReal) = V m c main_v2 := by
  obtain ⟨-, -, -, -, -, -, -, -, e0, e1, -⟩ := index_facts t
  funext y
  show V m c main_v2 (((cfg0.win 1).blk t).view.emb y) = V m c main_v2 y
  refine congrArg (V m c main_v2) (funext fun a => Fin.ext ?_)
  match a with
  | ⟨0, _⟩ => show win0_1.index t (0 : Fin 2) * 128 + 1 * (y 0).val = (y 0).val; omega
  | ⟨1, _⟩ => show win0_1.index t (1 : Fin 2) * 4 + 1 * (y 1).val = (y 1).val; omega

/-- The matrix's block is the whole matrix. -/
theorem block_matrix (c : Dev nD) (t : Fin cfg0.N) : (iblk m c 2 t : S128x128.Idx → EReal) = V m c main_arg2 := by
  obtain ⟨-, -, -, -, -, -, -, -, -, -, e0, e1, -⟩ := index_facts t
  funext y
  show V m c main_arg2 (((cfg0.win 2).blk t).view.emb y) = V m c main_arg2 y
  refine congrArg (V m c main_arg2) (funext fun a => Fin.ext ?_)
  match a with
  | ⟨0, _⟩ => show win0_2.index t (0 : Fin 2) * 128 + 1 * (y 0).val = (y 0).val; omega
  | ⟨1, _⟩ => show win0_2.index t (1 : Fin 2) * 128 + 1 * (y 1).val = (y 1).val; omega

/-- The bias's block is the whole bias. -/
theorem block_bias (c : Dev nD) (t : Fin cfg0.N) : (iblk m c 3 t : S128.Idx → EReal) = V m c main_arg3 := by
  obtain ⟨-, -, -, -, -, -, -, -, -, -, -, -, e0⟩ := index_facts t
  funext y
  show V m c main_arg3 (((cfg0.win 3).blk t).view.emb y) = V m c main_arg3 y
  refine congrArg (V m c main_arg3) (funext fun a => Fin.ext ?_)
  match a with
  | ⟨0, _⟩ => show win0_3.index t (0 : Fin 1) * 128 + 1 * (y 0).val = (y 0).val; omega

/-! ## One point's block is the point's part of the merged array -/

/-- Over any four loaded blocks that are the padded volume at batch `b` and positions 512 q …, the repeated taps, the
    matrix and the bias: the stored block at (0, d, s, o) is the merged array at (b, d, 512 q + s, o). -/
theorem point_value (c : Dev nD) (b : Fin 4) (p : Fin 512 → Fin 4096)
    (xb : Vec Ideal S1x19x512x128 .f32) (g : Vec Ideal S128x4 .f32) (M : Vec Ideal S128x128 .f32) (bias : Vec Ideal S128 .f32)
    (hx : ∀ (e : Fin 19) (s : Fin 512) (ch : Fin 128), xb (ix4 (0 : Fin 1) e s ch)
      = shifted (argX m c) padValue b e (⟨(p s).val / 64, by have := (p s).isLt; omega⟩ : Fin 64) (⟨(p s).val % 64, by omega⟩ : Fin 64) ch)
    (hg : g = tiled (argK m c)) (hM : M = argM m c) (hb : bias = argB m c) (d : Fin 16) (s : Fin 512) (o : Fin 128) :
    k0_pay1 (k0_pay2 xb g M bias) (ix4 (0 : Fin 1) d s o) = mergedAt m c b d (p s) o := by
  rw [BlockValue.payload_apply]
  subst hg hM hb
  unfold mergedAt mixedAt
  refine congrArg (· + _) (Finset.sum_congr rfl fun ch _ => congrArg (· * _) ?_)
  unfold BlockValue.blockFiltered filtered
  rw [hx, hx, hx, hx]

/-- What point `t` writes back is block `t` of `merged`. -/
theorem flushed_eq (c : Dev nD) (t : Fin cfg0.N) :
    (dats m 0 c).flushed 4 t = ((cfg0.win 4).blk t).view.read (Elt Ideal) (merged m c) := by
  show (cfg0.win 4).cut (grid0.coords t) ((dats m 0 c).after 4 t) = _
  rw [after0_4]
  unfold out0_4
  rw [View.canon_unit_zero zeros4]
  simp only [View.ld_unit_zero (S := S1x19x512x128) zeros4, View.ld_unit_zero (S := S128x4) zeros2,
    View.ld_unit_zero (S := S128x128) zeros2, View.ld_unit_zero (S := S128) zeros1]
  obtain ⟨-, -, -, -, f0, f1, f2, f3, -⟩ := index_facts t
  funext j
  obtain ⟨d, s, o, rfl⟩ : ∃ (d : Fin 16) (s : Fin 512) (o : Fin 128), j = ix4 (0 : Fin 1) d s o :=
    ⟨j 1, j 2, j 3, (eq_ix4 j).trans (congrArg (fun z => ix4 z (j 1) (j 2) (j 3)) (Fin.ext (by have : (j 0).val < 1 := (j 0).isLt; show (j 0).val = 0; omega)))⟩
  refine (point_value m c (batchOf t) (posOf t) (iblk m c 0 t) (iblk m c 1 t) (iblk m c 2 t) (iblk m c 3 t)
    (fun e s ch => (block_padded_apply m c t e s ch).trans (entry_padded_apply m c (batchOf t) e (posOf t s) ch))
    ((block_taps m c t).trans (entry_taps m c)) ((block_matrix m c t).trans (V_main_arg2 m c))
    ((block_bias m c t).trans (V_main_arg3 m c)) d s o).trans ?_
  show mergedAt m c (batchOf t) d (posOf t s) o = merged m c (((cfg0.win 4).blk t).view.emb (ix4 (0 : Fin 1) d s o))
  unfold merged
  refine congr (congr (congr (congrArg (mergedAt m c) (Fin.ext ?_)) (Fin.ext ?_)) (Fin.ext ?_)) (Fin.ext ?_)
  · show win0_4.index t (0 : Fin 4) = win0_4.index t (0 : Fin 4) * 1 + 1 * 0; omega
  · show d.val = win0_4.index t (1 : Fin 4) * 16 + 1 * d.val; omega
  · show win0_4.index t (2 : Fin 4) * 512 + s.val = win0_4.index t (2 : Fin 4) * 512 + 1 * s.val; omega
  · show o.val = win0_4.index t (3 : Fin 4) * 128 + 1 * o.val; omega

/-! ## The blocks tile the array -/

/-- An index of the array is in point `t`'s block iff each coordinate is in the block's range on its axis. -/
theorem mem_block (t : Fin cfg0.N) (i : S4x16x4096x128.Idx) :
    i ∈ ((cfg0.win 4).blk t).view.set ↔ ∀ a : Fin 4, win0_4.index t a * S1x16x512x128.size a ≤ (i a).val
      ∧ (i a).val < win0_4.index t a * S1x16x512x128.size a + S1x16x512x128.size a := by
  show i ∈ ((View.whole main_v5).slice (win0_4.rect t)).set ↔ _
  rw [View.set_slice_whole, Rect.mem_set_unit]
  exact Iff.rfl

/-- Every entry of the output array is in some point's block: the point of its batch and of its position's block of 512. -/
theorem covered (i : S4x16x4096x128.Idx) :
    ∃ t : Fin cfg0.N, (cfg0.win 4).flush t = true ∧ i ∈ ((cfg0.win 4).blk t).view.set := by
  have hi0 : (i 0).val < 4 := (i 0).isLt
  have hi1 : (i 1).val < 16 := (i 1).isLt
  have hi2 : (i 2).val < 4096 := (i 2).isLt
  have hi3 : (i 3).val < 128 := (i 3).isLt
  obtain ⟨t, ht⟩ := index_onto ⟨(i 0).val, hi0⟩ ⟨(i 2).val / 512, by omega⟩
  have q0 : win0_4.index t (0 : Fin 4) = (i 0).val := congrFun ht 0
  have q1 : win0_4.index t (1 : Fin 4) = 0 := congrFun ht 1
  have q2 : win0_4.index t (2 : Fin 4) = (i 2).val / 512 := congrFun ht 2
  have q3 : win0_4.index t (3 : Fin 4) = 0 := congrFun ht 3
  refine ⟨t, flush0_4 t, ?_⟩
  rw [mem_block]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 16 ≤ (i 1).val ∧ (i 1).val < win0_4.index t (1 : Fin 4) * 16 + 16; omega
  | ⟨2, _⟩ => show win0_4.index t (2 : Fin 4) * 512 ≤ (i 2).val ∧ (i 2).val < win0_4.index t (2 : Fin 4) * 512 + 512; omega
  | ⟨3, _⟩ => show win0_4.index t (3 : Fin 4) * 128 ≤ (i 3).val ∧ (i 3).val < win0_4.index t (3 : Fin 4) * 128 + 128; omega

/-- The output array after the run. -/
theorem final (c : Dev nD) : (dats m 0 c).arrAt 4 cfg0.N = merged m c :=
  (dats m 0 c).arrAt_eq_of_cover 4 (merged m c) (fun t _ => flushed_eq m c t) covered

end Cert.KernelIdeal.ArrayValue

end
-- ==== Proof.KernelValue.lean ====
/-
  The kernel program's result: after the region, @main splits the merged positions back into (h, w); the result is the
  specification CausalMix.mixed of the four arguments, and the arguments are unchanged.
-/
import proofs.«113829_j69750268887568_1_alg».proof.Proof.ArrayValue

noncomputable section

namespace Cert.KernelIdeal.KernelValue

open Cert.KernelIdeal Cert.KernelIdeal.Gen Cert.KernelIdeal.ArrayValue Idealize.ShloMosaic Idealize.ShloMosaic.TcCoe Idealize.ShloMosaic.ValueIdx
open Idealize.SL.Sem Cert.CausalMix

variable (m : (ℓ : Loc nD τ sig) → Buf (Elt Ideal) ℓ) (ρ : Dev nD → PrngReg)

/-- The specification of the four arguments as launched. -/
abbrev spec (c : Dev nD) : S4x16x64x64x128.Idx → EReal :=
  mixed (argX m c) padValue startValue (tiled (argK m c)) (argM m c) (argB m c)

/-- Splitting the merged positions back: entry (b, d, h, w, o) is the merged array's at position 64 h + w, and that
    position's (s / 64, s % 64) is (h, w) again. -/
theorem unmerged_eq (c : Dev nD) :
    shapeCast S4x16x64x64x128 (merged m c) shapeCasts_S4x16x4096x128_S4x16x64x64x128 = spec m c := by
  funext i
  obtain ⟨b, d, h, w, o, rfl⟩ : ∃ (b : Fin 4) (d : Fin 16) (h w : Fin 64) (o : Fin 128), i = ix5 b d h w o :=
    ⟨i 0, i 1, i 2, i 3, i 4, eq_ix5 i⟩
  have hb := b.isLt; have hd := d.isLt; have hh := h.isLt; have hw := w.isLt; have ho := o.isLt
  refine (shapeCast_apply (merged m c) shapeCasts_S4x16x4096x128_S4x16x64x64x128 (ix5 b d h w o)
    (ix4 b d (⟨h.val * 64 + w.val, by omega⟩ : Fin 4096) o) (by
      rw [Shape.rowMajor_val_four, Shape.rowMajor_val_five]
      show ((b.val * 16 + d.val) * 4096 + (h.val * 64 + w.val)) * 128 + o.val
        = (((b.val * 16 + d.val) * 64 + h.val) * 64 + w.val) * 128 + o.val
      omega)).trans ?_
  show mergedAt m c b d (⟨h.val * 64 + w.val, by omega⟩ : Fin 4096) o
    = mixedAt (argX m c) padValue startValue (tiled (argK m c)) (argM m c) (argB m c) b d h w o
  unfold mergedAt
  have eh : (⟨(h.val * 64 + w.val) / 64, by omega⟩ : Fin 64) = h := Fin.ext (by show (h.val * 64 + w.val) / 64 = h.val; omega)
  have ew : (⟨(h.val * 64 + w.val) % 64, by omega⟩ : Fin 64) = w := Fin.ext (by show (h.val * 64 + w.val) % 64 = w.val; omega)
  exact congrFun (congr (congrArg (mixedAt (argX m c) padValue startValue (tiled (argK m c)) (argM m c) (argB m c) b d) eh) ew) o

/-- The result buffer after the run is the reshape of the output array: the one operation after the region splits
    the merged positions of the array the region wrote. -/
theorem result_after (c : Dev nD) :
    Pipeline.afterTail₀ cfgs (dats m) 0 (V0 m) [hostOps1] c main_v6
      = shapeCast S4x16x64x64x128 ((dats m 0 c).arrAt 4 cfg0.N) shapeCasts_S4x16x4096x128_S4x16x64x64x128 := by
  unfold Pipeline.afterTail₀
  show StableHlo.after hostOps1 _ (Proc.devRef .tc main_v6) = _
  after_results
  have e : Pipeline.withArrays (cfgs 0).spec c (V0 m c) (fun w => (dats m 0 c).arrAt w (cfgs 0).N) (Proc.tc.devRef main_v5)
      = (dats m 0 c).arrAt 4 cfg0.N :=
    Pipeline.withArrays_arr spec0 launch0.win.arr_inj c _ _ 4
  rw [e]
  rfl

/-- Every weakly fair execution of the kernel program ends with the result at the specification of the arguments and the
    arguments unchanged. -/
theorem run : θ_run defs (onTc (τ := τ) (main (F := Ideal))) ⟨m, fun _ => 0, ρ⟩ fun r => ∀ c : Dev nD,
      r.2.mem ((c.tc : Thread nD τ).loc main_v6) = spec m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c =>
    ⟨((h c).2 main_v6 (Pipeline.mem_restRefs_of main_v6 (by decide) (by decide))).trans
        ((result_after m c).trans ((congrArg (fun A => shapeCast S4x16x64x64x128 A shapeCasts_S4x16x4096x128_S4x16x64x64x128) (final m c)).trans (unmerged_eq m c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.KernelValue

end
-- ==== Proof.lean ====
/-
  The kernel and its reference compute one function of (x, taps, M, bias) over the extended reals.

  Both filter the volume x causally along depth with four taps per channel (the same zero padding in front, the same
  order of the four additions starting from the same zero), then mix the 128 channels by M and add the bias
  (Proof/CausalMix.lean). The kernel works on positions (h, w) merged into one axis of 4096, in blocks of 512 over a
  4 × 8 grid, and takes the channel mix as a matrix product into a zero accumulator on rounded operands; at the
  extended reals the rounding is the identity, the product into zero is the plain finite sum the reference's
  contraction is, and merging and splitting positions moves no entry. No law of arithmetic is needed beyond that, so the
  finiteness of the inputs is never used.

  Proof/RefValue.lean reads the reference's result entry by entry; Proof/BlockValue.lean reads one stored block of the
  kernel; Proof/ArrayValue.lean passes from the blocks to the output array; Proof/KernelValue.lean adds the final split
  of the merged positions. Here the five claims are assembled: the three frames (the reference's from its run), the
  idealization (nothing was rewritten) and the equality of the two results.
-/
import proofs.«113829_j69750268887568_1_alg».proof.Defs
import proofs.«113829_j69750268887568_1_alg».proof.Proof.Gen.Kernel
import proofs.«113829_j69750268887568_1_alg».proof.Proof.Gen.Kernel.Skeleton
import proofs.«113829_j69750268887568_1_alg».proof.Proof.Gen.Kernel.Launch
import proofs.«113829_j69750268887568_1_alg».proof.Proof.Gen.Kernel.Points
import proofs.«113829_j69750268887568_1_alg».proof.Proof.Gen.Kernel.Frame
import proofs.«113829_j69750268887568_1_alg».proof.Proof.Gen.KernelIdeal
import proofs.«113829_j69750268887568_1_alg».proof.Proof.Gen.KernelIdeal.Skeleton
import proofs.«113829_j69750268887568_1_alg».proof.Proof.Gen.KernelIdeal.Launch
import proofs.«113829_j69750268887568_1_alg».proof.Proof.Gen.KernelIdeal.Points
import proofs.«113829_j69750268887568_1_alg».proof.Proof.Gen.KernelIdeal.Frame
import proofs.«113829_j69750268887568_1_alg».proof.Proof.Gen.ReferenceIdeal
import proofs.«113829_j69750268887568_1_alg».proof.Proof.Gen.ReferenceIdeal.Run
import proofs.«113829_j69750268887568_1_alg».proof.Proof.Gen.ReferenceIdeal.Read
import proofs.«113829_j69750268887568_1_alg».proof.Proof.Gen.Pre_finite_inputs
import proofs.«113829_j69750268887568_1_alg».proof.Proof.CausalMix
import proofs.«113829_j69750268887568_1_alg».proof.Proof.RefValue
import proofs.«113829_j69750268887568_1_alg».proof.Proof.KernelValue
import Idealize.ShloMosaic.Adequacy
import Idealize.ShloMosaic.Init

noncomputable section

namespace Cert.Proof

open Idealize.ShloMosaic Idealize.SL.Sem

theorem frame_kernel [Cert.Kernel.Facts] [Cert.Pre_finite_inputs.Facts] : Cert.frame_Kernel :=
  fun m ρ _ => Cert.Kernel.Gen.frame m ρ

theorem frame_kernelIdeal [Cert.KernelIdeal.Facts] [Cert.Pre_finite_inputs.Facts] : Cert.frame_KernelIdeal :=
  fun m ρ _ => Cert.KernelIdeal.Gen.frame m ρ

/-- The reference has no kernel: its frame is its run with the result dropped. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs end at the specification of arguments that agree. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.KernelValue.spec m c, Cert.KernelIdeal.KernelValue.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v36_eq, Cert.ReferenceIdeal.RefValue.value,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
